-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S1600000 .f32) (main_arg3 : FVec F S256x64 .f32) (main_arg4 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 52
  | .vmem => 7
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S_, .i32⟩
  | .hbm, ⟨12, _⟩ => ⟨S100000, .i32⟩
  | .hbm, ⟨13, _⟩ => ⟨S1600000x1, .i32⟩
  | .hbm, ⟨14, _⟩ => ⟨S100000, .i32⟩
  | .hbm, ⟨15, _⟩ => ⟨S100000, .f32⟩
  | .hbm, ⟨16, _⟩ => ⟨S_, .i32⟩
  | .hbm, ⟨17, _⟩ => ⟨S100000, .i32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S1600000, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S100000x64 : Shape := ⟨2, ![100000, 64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S100000x64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibSegCount.lean ====
/-
  Counting by scattering ones.

  A scatter that adds the constant one at every update position leaves, at each element of a zero array, the NUMBER
  of update positions that land there. With 32-bit integers the sum is that number as a word (no wrap below 2^32);
  over the extended reals it is that number as a real. From the count the degree scale 1/sqrt(max(count, 1)), taken
  where the count is positive and zero elsewhere, is the same whether the count is compared and converted as an
  integer or as a real, and it is a non-negative real number.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.SegCount

open Idealize.ShloMosaic

variable {s si u : Shape}

/-- How many update positions land on element `i`. -/
def hits (d : ScatterDims s si u) {w : Nat} (idx : IVec si w) (i : s.Idx) : ℕ :=
  (Finset.univ.filter (fun j : u.Idx => d.resultIdx? j idx = some i)).card

/-- No more positions land anywhere than there are positions. -/
theorem hits_le (d : ScatterDims s si u) {w : Nat} (idx : IVec si w) (i : s.Idx) : hits d idx i ≤ u.numel := by
  unfold hits
  calc _ ≤ (Finset.univ : Finset u.Idx).card := Finset.card_filter_le _ _
    _ = u.numel := by rw [Finset.card_univ, Fintype.card_congr u.rowMajor, Fintype.card_fin]

/-- Read at one element, the fold that adds the word one at every landing position is the start value there plus the
    number of listed positions that land on it. -/
private theorem fold_ones_apply (d : ScatterDims s si u) {w : Nat} (idx : IVec si w) (i : s.Idx)
    (l : List (Fin u.numel)) (r : s.Idx → BitVec 32) :
    (l.foldl (fun r n =>
        match d.resultIdx? (u.rowMajor.symm n) idx with
        | some k => fun i' => if i' = k then IntOp.addi (r k) (1#32 : BitVec 32) else r i'
        | none => r) r) i
      = r i + BitVec.ofNat 32 (l.countP (fun n => decide (d.resultIdx? (u.rowMajor.symm n) idx = some i))) := by
  induction l generalizing r with
  | nil => simp
  | cons a l ih =>
    rw [List.foldl_cons, ih, List.countP_cons]
    cases h : d.resultIdx? (u.rowMajor.symm a) idx with
    | none => simp
    | some k =>
      by_cases hk : i = k
      · subst hk; simp [IntOp.addi, BitVec.ofNat_add, add_comm, add_assoc]; exact BitVec.add_assoc _ _ _
      · have hk' : ¬ (k = i) := fun e => hk e.symm
        simp [hk, hk']

/-- Counting the positions of the row-major enumeration that land on an element counts the update positions that do. -/
private theorem countP_finRange_eq_hits (d : ScatterDims s si u) {w : Nat} (idx : IVec si w) (i : s.Idx) :
    (List.finRange u.numel).countP (fun n => decide (d.resultIdx? (u.rowMajor.symm n) idx = some i)) = hits d idx i := by
  unfold hits
  have h1 : (List.finRange u.numel).countP (fun n => decide (d.resultIdx? (u.rowMajor.symm n) idx = some i))
      = (Finset.univ.filter (fun n : Fin u.numel => d.resultIdx? (u.rowMajor.symm n) idx = some i)).card := by
    rw [List.countP_eq_length_filter, Finset.card, Finset.filter_val, Fin.univ_def]
    simp
  rw [h1]
  exact Finset.card_equiv u.rowMajor.symm (fun k => by simp)

/-- The integer scatter of ones into zeros, by word addition, holds the count as a word. -/
theorem scatter_ones_apply (d : ScatterDims s si u) {w : Nat} (idx : IVec si w) (i : s.Idx) :
    Host.scatter d IntOp.addi (fun _ => (0#32 : BitVec 32)) idx (fun _ => (1#32 : BitVec 32)) i
      = BitVec.ofNat 32 (hits d idx i) := by
  unfold Host.scatter
  refine (fold_ones_apply d idx i (List.finRange u.numel) (fun _ => 0#32)).trans ?_
  rw [countP_finRange_eq_hits]; simp

/-- The exact scatter-add of ones into zeros holds the count as a real. -/
theorem scatterAdd_ones_apply (d : ScatterDims s si u) {w : Nat} (idx : IVec si w) (i : s.Idx) :
    Ideal.hostScatterAdd d (fun _ => (0 : EReal)) idx (fun _ => (1 : EReal)) i = ((hits d idx i : ℝ) : EReal) := by
  unfold Ideal.hostScatterAdd hits
  rw [zero_add, Finset.sum_const, nsmul_one, EReal.coe_natCast]

/-- The single-precision word of 1.0 denotes the real number one. -/
theorem ofBits_one : Ideal.ofBits .f32 0x3F800000#32 = ((1 : ℝ) : EReal) := by
  simp [Ideal.ofBits, Ideal.ieee, -EReal.coe_mul]; norm_num

/-- The degree scale from a count: the same from the count as a word (signed compare with zero, conversion to a
    real) and from the count as a real. -/
theorem scale_int_eq_real (c : ℕ) (hc : c < 2 ^ 31) (one zero : EReal) :
    Scalar.select (IntOp.cmpi .sgt (BitVec.ofNat 32 c) 0#32)
        (Ideal.rsqrt (max (((BitVec.ofNat 32 c).toInt : ℝ) : EReal) one)) zero
      = Scalar.select (Ideal.cmp .ogt ((c : ℝ) : EReal) 0) (Ideal.rsqrt (max ((c : ℝ) : EReal) one)) zero := by
  have hInt : (((BitVec.ofNat 32 c).toInt : ℝ) : EReal) = ((c : ℝ) : EReal) := by
    rw [StableHlo.Predicate.toInt_ofNat_small c hc]; simp
  have hmod : c % 2 ^ 32 = c := Nat.mod_eq_of_lt (by omega)
  have h1 : IntOp.cmpi .sgt (BitVec.ofNat 32 c) 0#32 = 1 ↔ 0 < c := by
    refine (StableHlo.Predicate.sgt_iff_toNat (a := BitVec.ofNat 32 c) (b := 0#32) ?_ ?_).trans ?_
    · rw [BitVec.toNat_ofNat, hmod]; exact hc
    · simp
    · simp [BitVec.toNat_ofNat]; omega
  have h2 : Ideal.cmp .ogt ((c : ℝ) : EReal) 0 = 1 ↔ 0 < c := by
    unfold Ideal.cmp
    refine (StableHlo.Predicate.ofBool_eq_one_iff _).trans ?_
    simp
  rw [hInt]
  unfold Scalar.select
  by_cases h : 0 < c
  · rw [if_pos (h1.mpr h), if_pos (h2.mpr h)]
  · rw [if_neg (mt h1.mp h), if_neg (mt h2.mp h)]

/-- The reciprocal root of a count raised to at least one is the real reciprocal root. -/
private theorem rsqrt_max_one (c : ℕ) :
    Ideal.rsqrt (max ((c : ℝ) : EReal) ((1 : ℝ) : EReal)) = (((Real.sqrt (max (c : ℝ) 1))⁻¹ : ℝ) : EReal) := by
  rw [← EReal.coe_strictMono.monotone.map_max, Ideal.rsqrt_coe]
  have h : (0 : ℝ) < max (c : ℝ) 1 := lt_of_lt_of_le one_pos (le_max_right _ _)
  rw [if_neg (not_lt.mpr h.le), if_neg h.ne']

/-- The degree scale is a non-negative number ... -/
theorem scale_nonneg (c : ℕ) :
    0 ≤ Scalar.select (Ideal.cmp .ogt ((c : ℝ) : EReal) 0) (Ideal.rsqrt (max ((c : ℝ) : EReal) ((1 : ℝ) : EReal))) (0 : EReal) := by
  rw [rsqrt_max_one]; unfold Scalar.select; split_ifs
  · exact EReal.coe_nonneg.mpr (inv_nonneg.mpr (Real.sqrt_nonneg _))
  · exact le_refl _

/-- ... and finite. -/
theorem scale_ne_top (c : ℕ) :
    Scalar.select (Ideal.cmp .ogt ((c : ℝ) : EReal) 0) (Ideal.rsqrt (max ((c : ℝ) : EReal) ((1 : ℝ) : EReal))) (0 : EReal) ≠ ⊤ := by
  rw [rsqrt_max_one]; unfold Scalar.select; split_ifs
  · exact EReal.coe_ne_top _
  · exact EReal.zero_ne_top

end Cert.SegCount

end
-- ==== Proof.LibRowGather.lean ====
/-
  A lookup of table rows by a column of row numbers, `table[ids]`, read at one entry.

  For a table of N rows and D columns and a column of R row numbers (carried as R×1 start indices), the gather
  with offset axis 1, collapsed operand axis 0, start-index map [0], index-vector axis 1 and slice sizes [1, D]
  has at (p, k) the table's entry at row `ids[p]` — read as a signed integer and clamped into [0, N − 1], as every
  start index of a gather is — and column k. Axis 0 of the operand is collapsed, so it carries only the clamped
  start; axis 1 is not in the start-index map, so it carries only the result's offset coordinate k.
-/
import Idealize.ShloMosaic.Lib.ValueIdx

noncomputable section

namespace Cert.LibRowGather

open Idealize.ShloMosaic Idealize.ShloMosaic.ValueIdx

variable {α : Type}

/-- A word read as a signed integer and clamped into the rows 0 … N − 1 of a table. -/
def clampRow (N : Nat) (hN : 0 < N) {w : Nat} (v : BitVec w) : Fin N :=
  ⟨min v.toInt.toNat (N - 1), by omega⟩

/-- Those dimension numbers, for a table [N, D], start indices [R, 1] and a result [R, D]. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE LOOKUP READ AT (p, k): the table at the clamped row number `ids[p, 0]` and column k. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (ids : IVec ⟨2, ![R, 1]⟩ w) (p : Fin R) (k : Fin D) :
    Host.gather (rowDims N D R wf) x ids (ix2 p k) = x (ix2 (clampRow N hN (ids (ix2 p (0 : Fin 1)))) k) := by
  unfold Host.gather
  congr 1
  funext a
  refine Fin.ext ?_
  match a with
  | ⟨0, _⟩ =>
    show (rowDims N D R wf).start (ix2 p k) ids 0 + (rowDims N D R wf).batchCoord (ix2 p k) 0
        + (rowDims N D R wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 p k) ⟨List.idxOf (0 : Fin 2) (rowDims N D R wf).startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl
  | ⟨1, _⟩ =>
    show (rowDims N D R wf).start (ix2 p k) ids 1 + (rowDims N D R wf).batchCoord (ix2 p k) 1
        + (rowDims N D R wf).offCoord (ix2 p k) 1 = k.val
    have hsm : ¬ (1 : Fin 2) ∈ (rowDims N D R wf).startIndexMap :=
      fun h => absurd (congrArg Fin.val (List.mem_singleton.mp h)) Nat.one_ne_zero
    have hk : (1 : Fin 2) ∈ (rowDims N D R wf).sKept :=
      (GatherDims.mem_sKept _ _).mpr ⟨fun h => absurd (congrArg Fin.val (List.mem_singleton.mp h)) Nat.one_ne_zero, List.not_mem_nil⟩
    rw [GatherDims.batchCoord_eq_zero _ _ _ List.not_mem_nil]
    unfold GatherDims.start GatherDims.offCoord
    rw [dif_neg hsm, dif_pos hk]
    simp only [Nat.add_zero, Nat.zero_add]
    rfl

end Cert.LibRowGather

end
-- ==== Proof.LibRowIndex.lean ====
/-
  Where a scatter of rows lands, and what a lookup by position reads.

  A scatter of E update rows of width D into an array of N rows, each row sent to the row number its index word
  names (read as a signed integer, not clamped; a row number outside 0 … N − 1 drops the update), lands update
  entry (e, k) on array entry (n, k) only if the e-th index word, read as a signed integer, is n.
  A lookup of a vector of N entries by a column of E positions reads, at p, the vector at the p-th position read
  as a signed integer and clamped into 0 … N − 1; a position that is already a row number is its own clamp; and
  the wrap-around of negative positions (add N where the word is negative) leaves a non-negative word alone.
-/
import Idealize.ShloMosaic.Lib.ValueIdx
import Idealize.ShloMosaic.Lib.StableHlo.Predicate
import proofs.«416556_j57698590654796_3_alg».proof.Proof.LibRowGather

noncomputable section

namespace Cert.RowIndex

open Idealize.ShloMosaic Idealize.ShloMosaic.ValueIdx Cert.LibRowGather

/-- The dimension numbers of a scatter of rows: array [N, D], index column [E, 1], updates [E, D]; the update's
    axis 1 is the window, the array's axis 0 is the scattered one. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update entry that lands on array entry `i` was sent there by its row's index word: that word, read as a signed
    integer, is `i`'s row number. -/
theorem row_of_resultIdx {N D E w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N D E wf).resultIdx? j idx = some i) :
    (idx (ix2 (j 0) (0 : Fin 1))).toInt = ((i 0).val : ℤ) := by
  unfold ScatterDims.resultIdx? at h
  split at h
  · rename_i hall
    have hi := Option.some.inj h
    have h0 := hall 0
    -- axis 0 is inserted: it carries no window coordinate
    have hw0 : (rowScatterDims N D E wf).window j 0 = 0 := by
      unfold ScatterDims.window
      rw [dif_neg]
      intro hk
      simp [ScatterDims.sKept, Shape.kept, List.mem_filter] at hk
    -- axis 0 is the one the index word addresses: its start is that word read signed
    have hs0 : (rowScatterDims N D E wf).start j idx 0 = (idx (ix2 (j 0) (0 : Fin 1))).toInt := by
      unfold ScatterDims.start
      rw [dif_pos (show (0 : Fin 2) ∈ (rowScatterDims N D E wf).scatterDimsToOperandDims from List.mem_singleton.mpr rfl)]
      have hsi : (rowScatterDims N D E wf).siIdx j
          ⟨List.idxOf (0 : Fin 2) (rowScatterDims N D E wf).scatterDimsToOperandDims,
            List.idxOf_lt_length_iff.2 (List.mem_singleton.mpr rfl)⟩ = ix2 (j 0) (0 : Fin 1) := by
        funext c; refine Fin.ext ?_
        match c with
        | ⟨0, _⟩ => rfl
        | ⟨1, _⟩ => rfl
      rw [hsi]
      rfl
    have hv : (i 0).val = ((rowScatterDims N D E wf).start j idx 0 + (rowScatterDims N D E wf).window j 0).toNat := by
      rw [← hi]
    rw [hw0, hs0] at h0
    rw [hw0, hs0] at hv
    rw [hv]
    have := h0.1
    omega
  · exact absurd h (by simp)

/-- A word that reads, as a signed integer, a row number is clamped to that row. -/
theorem clampRow_of_toInt {N w : Nat} (hN : 0 < N) (v : BitVec w) (n : Fin N) (h : v.toInt = (n.val : ℤ)) :
    clampRow N hN v = n := by
  refine Fin.ext ?_
  show min v.toInt.toNat (N - 1) = n.val
  have hv : v.toInt.toNat = n.val := by rw [h]; exact Int.toNat_natCast _
  have := n.isLt
  rw [hv]
  omega

/-- jnp's wrap-around of a negative position leaves a non-negative word as it is. -/
theorem wrap_of_nonneg (v c : BitVec 32) (h : 0 ≤ v.toInt) :
    Scalar.select (IntOp.cmpi .slt v 0#32) (IntOp.addi v c) v = v := by
  have hs : v.slt 0#32 = false := by
    unfold BitVec.slt
    rw [BitVec.toInt_zero]
    exact decide_eq_false (by omega)
  show Scalar.select (BitVec.ofBool (v.slt 0#32)) (IntOp.addi v c) v = v
  rw [hs]
  exact select_zero _ _

/-- The lookup of a vector by a column of positions, read at `p`: the vector at the clamped position. -/
theorem take_apply {α : Type} {N E w : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (p : Fin E) :
    Host.gather d x idx (ix1 p) = x (ix1 (clampRow N hN (idx (ix2 p (0 : Fin 1))))) := by
  -- the rank-1 index at p, and row p of the column, written either way
  have h1 : ∀ {n : Nat} (q : Fin n), Shape.Idx.ofFin q = ix1 q := fun q => by
    funext a
    obtain rfl : a = 0 := Subsingleton.elim _ _
    exact Fin.ext rfl
  have h2 : StableHlo.Predicate.ixP p = ix2 p (0 : Fin 1) := by
    funext a
    match a with
    | ⟨0, _⟩ => rfl
    | ⟨1, _⟩ => rfl
  have hg := StableHlo.Predicate.gather_take d hcoll hob hsim hivd x idx p hN
  rw [h1, h1] at hg
  simp only [h2] at hg
  exact hg

end Cert.RowIndex

end
-- ==== Proof.LibSumAlgebra.lean ====
/-
  The one algebraic law that joins the two programs.

  On the extended reals a product does not distribute over a sum in general, but a factor that is a non-negative
  real number does: c · (t₁ + … + tₙ) = c · t₁ + … + c · tₙ for 0 ≤ c < ⊤, whatever the terms are. With it, a scale
  that is constant over the terms of a sum may be applied once to the sum or once to every term: the destination's
  degree scale, taken out of the sum over the edges that arrive at one node, against the same scale gathered per
  edge inside the sum. Commuting and regrouping the factors of each term needs nothing of the kind.
-/
import Mathlib.Data.EReal.Operations
import Mathlib.Data.EReal.Inv
import Mathlib.Algebra.BigOperators.Group.Finset.Basic

noncomputable section

namespace Cert.SumAlgebra

open scoped BigOperators

/-- A non-negative real factor distributes over a finite sum of extended reals. -/
theorem mul_sum_of_nonneg {ι : Type*} (s : Finset ι) (c : EReal) (h0 : 0 ≤ c) (ht : c ≠ ⊤) (t : ι → EReal) :
    c * ∑ u ∈ s, t u = ∑ u ∈ s, c * t u := by
  classical
  induction s using Finset.induction_on with
  | empty => simp
  | insert a s ha ih =>
    rw [Finset.sum_insert ha, Finset.sum_insert ha, EReal.left_distrib_of_nonneg_of_ne_top h0 ht, ih]

/-- THE LAW. Over the terms `u` of a finite sum, let `a u` be the edge weight, `dr u` the source's scale, `dc u` the
    destination's scale gathered per edge and `h u` the source's feature. If the gathered destination scale is the one
    number `c` (non-negative, finite) on every term, then scaling the sum of `a · (dr · h)` by `c` is summing
    `((dr · dc) · a) · h`; a zero start of the sum and a bias added at the end ride along. -/
theorem scaled_sum_eq {ι : Type*} (s : Finset ι) (c : EReal) (h0 : 0 ≤ c) (ht : c ≠ ⊤) (a dr dc h : ι → EReal)
    (hdc : ∀ u ∈ s, dc u = c) (b : EReal) :
    c * (0 + ∑ u ∈ s, a u * (dr u * h u)) + b = (0 + ∑ u ∈ s, ((dr u * dc u) * a u) * h u) + b := by
  rw [zero_add, zero_add, mul_sum_of_nonneg s c h0 ht]
  congr 1
  refine Finset.sum_congr rfl fun u hu => ?_
  rw [hdc u hu]
  rw [mul_comm (dr u) c, mul_assoc c (dr u) (a u), mul_assoc c, mul_comm (dr u) (a u), mul_assoc (a u)]

end Cert.SumAlgebra

end
-- ==== Proof.GcnCore.lean ====
/-
  The two message-passing sums are one.

  Nodes 0 … N − 1 carry a scale s(n) (a non-negative real number) and a feature row H(n, ·); edge e goes from the node
  named by its row word to the node named by its column word, with weight ex(e). An edge's words are read as jnp
  reads an index: a negative word is wrapped once by N, and the word is then clamped into 0 … N − 1. The sum over
  the edges ARRIVING at node v — those whose column word, read as a signed integer without wrapping or clamping,
  is v: the others are dropped by the scatter — can be taken with the destination's scale applied once to the sum,
      s(v) · ∑ₑ ex(e) · (s(src e) · H(src e, k)),
  or with both scales gathered per edge inside it,
      ∑ₑ ((s(src e) · s(dst e)) · ex(e)) · H(src e, k):
  on an arriving edge the column word is already the row number v, so wrapping and clamping leave it alone and the
  gathered destination scale is s(v); a non-negative real factor distributes over a sum of extended reals.
-/
import Idealize.ShloMosaic.PureOps.Ideal
import Idealize.ShloMosaic.Lib.ValueIdx
import proofs.«416556_j57698590654796_3_alg».proof.Proof.LibRowGather
import proofs.«416556_j57698590654796_3_alg».proof.Proof.LibRowIndex
import proofs.«416556_j57698590654796_3_alg».proof.Proof.LibSumAlgebra

noncomputable section

namespace Cert.GcnCore

open Idealize.ShloMosaic Idealize.ShloMosaic.ValueIdx Cert.LibRowGather Cert.RowIndex
open scoped BigOperators

variable {N D E : ℕ}

/-- The edges' column words as the [E, 1] column of start indices the scatter reads. -/
def idxCol (col : Fin E → BitVec 32) : IVec ⟨2, ![E, 1]⟩ 32 := fun k => col (k 0)

/-- jnp's wrap-around of a negative index: add N where the word is negative. -/
def wrap (N : ℕ) (v : BitVec 32) : BitVec 32 :=
  Scalar.select (IntOp.cmpi .slt v 0#32) (IntOp.addi v (BitVec.ofNat 32 N)) v

/-- The node an index word names when it is looked up: wrapped, then clamped into the nodes. -/
def node (hN : 0 < N) (v : BitVec 32) : Fin N := clampRow N hN (wrap N v)

/-- The update entries that land on array entry `i`. -/
def landing (wf : ScatterDims.WF ⟨2, ![N, D]⟩ ⟨2, ![E, 1]⟩ ⟨2, ![E, D]⟩ [1] [0] [0] 1) (col : Fin E → BitVec 32)
    (i : (⟨2, ![N, D]⟩ : Shape).Idx) : Finset (⟨2, ![E, D]⟩ : Shape).Idx :=
  Finset.univ.filter (fun u => (rowScatterDims N D E wf).resultIdx? u (idxCol col) = some i)

/-- On an edge that arrives at node `i 0`, the looked-up destination is that node. -/
theorem node_col_of_landing (hN : 0 < N) (wf : ScatterDims.WF ⟨2, ![N, D]⟩ ⟨2, ![E, 1]⟩ ⟨2, ![E, D]⟩ [1] [0] [0] 1)
    (col : Fin E → BitVec 32) (i : (⟨2, ![N, D]⟩ : Shape).Idx) (u : (⟨2, ![E, D]⟩ : Shape).Idx)
    (hu : u ∈ landing wf col i) : node hN (col (u 0)) = i 0 := by
  have hu' : (rowScatterDims N D E wf).resultIdx? u (idxCol col) = some i := (Finset.mem_filter.mp hu).2
  have hcol : (col (u 0)).toInt = ((i 0).val : ℤ) := row_of_resultIdx wf (idxCol col) u i hu'
  have h0 : 0 ≤ (col (u 0)).toInt := by rw [hcol]; exact Int.natCast_nonneg _
  unfold node wrap
  rw [wrap_of_nonneg (col (u 0)) (BitVec.ofNat 32 N) h0]
  exact clampRow_of_toInt hN (col (u 0)) (i 0) hcol

/-- THE EQUATION, at one array entry `i`. -/
theorem scaled_once_eq_scaled_per_edge (hN : 0 < N)
    (wf : ScatterDims.WF ⟨2, ![N, D]⟩ ⟨2, ![E, 1]⟩ ⟨2, ![E, D]⟩ [1] [0] [0] 1)
    (row col : Fin E → BitVec 32) (s : Fin N → EReal) (hs0 : ∀ n, 0 ≤ s n) (hst : ∀ n, s n ≠ ⊤)
    (ex : Fin E → EReal) (H : Fin N → Fin D → EReal) (b : Fin D → EReal) (i : (⟨2, ![N, D]⟩ : Shape).Idx) :
    s (i 0) * (0 + ∑ u ∈ landing wf col i, ex (u 0) * (s (node hN (row (u 0))) * H (node hN (row (u 0))) (u 1))) + b (i 1)
      = (0 + ∑ u ∈ landing wf col i,
          ((s (node hN (row (u 0))) * s (node hN (col (u 0)))) * ex (u 0)) * H (node hN (row (u 0))) (u 1)) + b (i 1) := by
  exact Cert.SumAlgebra.scaled_sum_eq (landing wf col i) (s (i 0)) (hs0 _) (hst _) (fun u => ex (u 0))
    (fun u => s (node hN (row (u 0)))) (fun u => s (node hN (col (u 0)))) (fun u => H (node hN (row (u 0))) (u 1))
    (fun u hu => by rw [node_col_of_landing hN wf col i u hu]) (b (i 1))

end Cert.GcnCore

end
-- ==== Proof.GcnTerms.lean ====
/-
  The quantities of the graph convolution, named once, over plain index types.

  The edge table has two rows of 1,600,000 words: row 0 the sources, row 1 the destinations. A node's in-degree is
  the number of edges whose destination word names it (a word outside 0 … 99,999 names no node); its scale is
  1/sqrt(max(deg, 1)) if deg > 0 and 0 otherwise; an edge's weight is exp(cns); a node's feature row is its row of
  the product x · W.
-/
import Idealize.ShloMosaic.PureOps.Ideal
import Idealize.ShloMosaic.Lib.ValueIdx
import proofs.«416556_j57698590654796_3_alg».proof.Proof.LibSegCount
import proofs.«416556_j57698590654796_3_alg».proof.Proof.GcnCore

noncomputable section

namespace Cert.GcnTerms

open Idealize.ShloMosaic Idealize.ShloMosaic.ValueIdx Cert.GcnCore
open scoped BigOperators

/-- The dimension numbers of the degree count: ones [E] scattered into [N] by an [E, 1] column of words. -/
abbrev degDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem wfDeg : ScatterDims.WF ⟨1, ![100000]⟩ ⟨2, ![1600000, 1]⟩ ⟨1, ![1600000]⟩ [] [0] [0] 1 := by decide
theorem wfRows : ScatterDims.WF ⟨2, ![100000, 64]⟩ ⟨2, ![1600000, 1]⟩ ⟨2, ![1600000, 64]⟩ [1] [0] [0] 1 := by decide

/-- The edges' source words. -/
def rowW (ei : (⟨2, ![2, 1600000]⟩ : Shape).Idx → BitVec 32) : Fin 1600000 → BitVec 32 := fun e => ei (ix2 (0 : Fin 2) e)
/-- The edges' destination words. -/
def colW (ei : (⟨2, ![2, 1600000]⟩ : Shape).Idx → BitVec 32) : Fin 1600000 → BitVec 32 := fun e => ei (ix2 (1 : Fin 2) e)

/-- A node's in-degree: how many edges' destination words name it. -/
def deg (ei : (⟨2, ![2, 1600000]⟩ : Shape).Idx → BitVec 32) (n : Fin 100000) : ℕ :=
  Cert.SegCount.hits (degDims 100000 1600000 wfDeg) (idxCol (colW ei)) (ix1 n)

/-- A node's scale: 1/sqrt(max(deg, 1)) where deg > 0, zero elsewhere. -/
def scale (ei : (⟨2, ![2, 1600000]⟩ : Shape).Idx → BitVec 32) (n : Fin 100000) : EReal :=
  Scalar.select (Ideal.cmp .ogt ((deg ei n : ℝ) : EReal) 0)
    (Ideal.rsqrt (max ((deg ei n : ℝ) : EReal) ((1 : ℝ) : EReal))) (0 : EReal)

theorem scale_nonneg (ei : (⟨2, ![2, 1600000]⟩ : Shape).Idx → BitVec 32) (n : Fin 100000) : 0 ≤ scale ei n :=
  Cert.SegCount.scale_nonneg _
theorem scale_ne_top (ei : (⟨2, ![2, 1600000]⟩ : Shape).Idx → BitVec 32) (n : Fin 100000) : scale ei n ≠ ⊤ :=
  Cert.SegCount.scale_ne_top _
theorem deg_lt (ei : (⟨2, ![2, 1600000]⟩ : Shape).Idx → BitVec 32) (n : Fin 100000) : deg ei n < 2 ^ 31 :=
  lt_of_le_of_lt (Cert.SegCount.hits_le _ _ _) (by decide)

/-- An edge's weight. -/
def weight (cns : (⟨1, ![1600000]⟩ : Shape).Idx → EReal) (e : Fin 1600000) : EReal := Ideal.exp (cns (ix1 e))

/-- A node's feature row: its row of x · W. -/
def feat (x : (⟨2, ![100000, 256]⟩ : Shape).Idx → EReal) (w : (⟨2, ![256, 64]⟩ : Shape).Idx → EReal)
    (n : Fin 100000) (k : Fin 64) : EReal := ∑ q : Fin 256, x (ix2 n q) * w (ix2 q k)

/-- THE RESULT, in the reference's arrangement: at (v, k) the sum over the edges arriving at v of
    ((scale(src) · scale(dst)) · weight) · feat(src, k), from zero, plus the bias. -/
def result (x : (⟨2, ![100000, 256]⟩ : Shape).Idx → EReal) (ei : (⟨2, ![2, 1600000]⟩ : Shape).Idx → BitVec 32)
    (cns : (⟨1, ![1600000]⟩ : Shape).Idx → EReal) (w : (⟨2, ![256, 64]⟩ : Shape).Idx → EReal)
    (bias : (⟨1, ![64]⟩ : Shape).Idx → EReal) : (⟨2, ![100000, 64]⟩ : Shape).Idx → EReal := fun i =>
  (0 + ∑ u ∈ landing wfRows (colW ei) i,
      ((scale ei (node (by decide) (rowW ei (u 0))) * scale ei (node (by decide) (colW ei (u 0)))) * weight cns (u 0))
        * feat x w (node (by decide) (rowW ei (u 0))) (u 1)) + bias (ix1 (i 1))

/-- The same in the kernel's arrangement: the destination's scale applied once to the sum. -/
theorem result_eq_scaled_once (x : (⟨2, ![100000, 256]⟩ : Shape).Idx → EReal) (ei : (⟨2, ![2, 1600000]⟩ : Shape).Idx → BitVec 32)
    (cns : (⟨1, ![1600000]⟩ : Shape).Idx → EReal) (w : (⟨2, ![256, 64]⟩ : Shape).Idx → EReal)
    (bias : (⟨1, ![64]⟩ : Shape).Idx → EReal) (i : (⟨2, ![100000, 64]⟩ : Shape).Idx) :
    scale ei (i 0) * (0 + ∑ u ∈ landing wfRows (colW ei) i,
        weight cns (u 0) * (scale ei (node (by decide) (rowW ei (u 0))) * feat x w (node (by decide) (rowW ei (u 0))) (u 1)))
      + bias (ix1 (i 1)) = result x ei cns w bias i :=
  scaled_once_eq_scaled_per_edge (by decide) wfRows (rowW ei) (colW ei) (scale ei) (scale_nonneg ei) (scale_ne_top ei)
    (weight cns) (feat x w) (fun k => bias (ix1 k)) i

end Cert.GcnTerms

end
-- ==== Proof.RefValue.lean ====
/-
  The reference program's result is the graph convolution's sum.

  Read one operation at a time, the reference computes at (v, k): from zero, the sum over the update entries that
  land on (v, k) — the edges whose destination word is v, in column k — of
  ((scale(src) · scale(dst)) · exp(cns)) · (x · W)(src, k), plus the bias; the looked-up source and destination are
  the edge's words wrapped once if negative and clamped, the scale is computed from the real-valued degree count.
-/
import proofs.«416556_j57698590654796_3_alg».proof.Proof.RefReadP
import proofs.«416556_j57698590654796_3_alg».proof.Proof.GcnTerms
import proofs.«416556_j57698590654796_3_alg».proof.Proof.LibRowIndex
import proofs.«416556_j57698590654796_3_alg».proof.Proof.LibRowGather
import proofs.«416556_j57698590654796_3_alg».proof.Proof.LibSegCount
import Idealize.ShloMosaic.Lib.StableHlo.Predicate
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open scoped BigOperators

/-- The degree scatter's printed dimension numbers are the generic ones of a count. -/
theorem degDims_eq :
    scatter_S100000_S1600000x1_S1600000_n_0_0_1 = Cert.GcnTerms.degDims 100000 1600000 Cert.GcnTerms.wfDeg := rfl

/-- The column of destination words, as the reference builds it (slice of row 1, reshape, broadcast to a column). -/
theorem colIdx_eq (k : S1600000x1.Idx) :
    idx_main_v3 (idx_main_v4 (idx_main_v7 k)) = ix2 (1 : Fin 2) (k 0) := by
  funext a
  match a with
  | ⟨0, _⟩ => rfl
  | ⟨1, _⟩ => exact Fin.ext (Nat.mod_eq_of_lt (k 0).isLt)

/-- The column of destination words the degree count reads. -/
theorem v7_eq (x1 : (⟨S2x1600000, .i32⟩ : BufTy).Contents (Elt Ideal)) :
    val_main_v7 (F := Ideal) x1 = Cert.GcnCore.idxCol (Cert.GcnTerms.colW x1) := by
  funext k
  rw [val_main_v7_apply, val_main_v4_apply, val_main_v3_apply, colIdx_eq k]
  rfl

/-- At the exact values the host's accumulating scatter is the exact scatter-add. -/
theorem scatterAdd_ideal {s si u : Shape} {w : Nat} {φ : FTy} (d : ScatterDims s si u) (x : FVec Ideal s φ)
    (idx : IVec si w) (upd : FVec Ideal u φ) : Host.scatterAdd d x idx upd = Ideal.hostScatterAdd d x idx upd := rfl

/-- The reference's degree count, read at node `n`, is the node's in-degree as a real. -/
theorem v8_apply (x1 : (⟨S2x1600000, .i32⟩ : BufTy).Contents (Elt Ideal)) (n : Fin 100000) :
    val_main_v8 (F := Ideal) x1 (ix1 n) = ((Cert.GcnTerms.deg x1 n : ℝ) : EReal) := by
  have h6 : val_main_v6 (F := Ideal) = fun _ => (0 : EReal) := by
    funext i; rw [val_main_v6_apply, val_main_cst_0_apply]; exact Ideal.ofBits_zero_f32
  have h5 : val_main_v5 (F := Ideal) = fun _ => (1 : EReal) := by
    funext i; rw [val_main_v5_apply, val_main_cst_apply]; exact Cert.SegCount.ofBits_one.trans EReal.coe_one
  unfold val_main_v8 Cert.GcnTerms.deg
  rw [scatterAdd_ideal, h6, h5, v7_eq, degDims_eq, Cert.SegCount.scatterAdd_ones_apply]

/-- The reference's degree scale, read at node `n`, is the node's scale. -/
theorem scale_apply (x1 : (⟨S2x1600000, .i32⟩ : BufTy).Contents (Elt Ideal)) (n : Fin 100000) :
    val_main_v14 (F := Ideal) x1 (ix1 n) = Cert.GcnTerms.scale x1 n := by
  rw [val_main_v14_apply, val_main_v10_apply, val_main_v13_apply, val_main_v12_apply, v8_apply,
    val_main_v9_apply, val_main_cst_1_apply, val_main_v11_apply, val_main_cst_2_apply, val_main_call0_v1_apply,
    val_main_call0_v0_apply, val_main_cst_3_apply]
  simp only [Ideal.ofBits_def, Ideal.ofBits_zero_f32, Cert.SegCount.ofBits_one, Ideal.maximumf_def, Ideal.hostUnary_rsqrt_def]
  unfold Cert.GcnTerms.scale
  generalize Cert.GcnTerms.deg x1 n = c
  rfl

/-- The bias row, as the reference broadcasts it. -/
theorem v46_apply (x4 : (⟨S64, .f32⟩ : BufTy).Contents (Elt Ideal)) (i : S100000x64.Idx) :
    val_main_v46 (F := Ideal) x4 i = x4 (ix1 (i 1)) := by
  rw [val_main_v46_apply, val_main_v45_apply]
  refine congrArg x4 ?_
  funext a
  match a with
  | ⟨0, _⟩ => rfl

/-- The source words, as the reference builds them (slice of row 0, reshape). -/
theorem v2_apply (x1 : (⟨S2x1600000, .i32⟩ : BufTy).Contents (Elt Ideal)) (e : Fin 1600000) :
    val_main_v2 (F := Ideal) x1 (ix1 e) = Cert.GcnTerms.rowW x1 e := by
  rw [val_main_v2_apply, val_main_v1_apply]
  unfold Cert.GcnTerms.rowW
  refine congrArg x1 ?_
  funext a
  match a with
  | ⟨0, _⟩ => rfl
  | ⟨1, _⟩ => exact Fin.ext (Nat.mod_eq_of_lt e.isLt)

/-- The destination words, as the reference builds them (slice of row 1, reshape). -/
theorem v4_apply (x1 : (⟨S2x1600000, .i32⟩ : BufTy).Contents (Elt Ideal)) (e : Fin 1600000) :
    val_main_v4 (F := Ideal) x1 (ix1 e) = Cert.GcnTerms.colW x1 e := by
  rw [val_main_v4_apply, val_main_v3_apply]
  unfold Cert.GcnTerms.colW
  refine congrArg x1 ?_
  funext a
  match a with
  | ⟨0, _⟩ => rfl
  | ⟨1, _⟩ => exact Fin.ext (Nat.mod_eq_of_lt e.isLt)

/-- Row `e` of a column of per-edge values is the `e`-th value. -/
theorem colRow_eq (e : Fin 1600000) : idx_main_v20 (ix2 e (0 : Fin 1)) = ix1 e := by
  funext a
  match a with
  | ⟨0, _⟩ => rfl

/-- The wrapped source word the scale lookup reads. -/
theorem v20_apply (x1 : (⟨S2x1600000, .i32⟩ : BufTy).Contents (Elt Ideal)) (e : Fin 1600000) :
    val_main_v20 (F := Ideal) x1 (ix2 e (0 : Fin 1)) = Cert.GcnCore.wrap 100000 (Cert.GcnTerms.rowW x1 e) := by
  rw [val_main_v20_apply, colRow_eq, val_main_v19_apply, val_main_v16_apply, val_main_v18_apply, v2_apply,
    val_main_v15_apply, val_main_c_apply, val_main_v17_apply, val_main_c_4_apply]
  rfl

/-- The wrapped destination word the scale lookup reads. -/
theorem v27_apply (x1 : (⟨S2x1600000, .i32⟩ : BufTy).Contents (Elt Ideal)) (e : Fin 1600000) :
    val_main_v27 (F := Ideal) x1 (ix2 e (0 : Fin 1)) = Cert.GcnCore.wrap 100000 (Cert.GcnTerms.colW x1 e) := by
  rw [val_main_v27_apply, show idx_main_v27 (ix2 e (0 : Fin 1)) = ix1 e from colRow_eq e, val_main_v26_apply,
    val_main_v23_apply, val_main_v25_apply, v4_apply, val_main_v22_apply, val_main_c_5_apply, val_main_v24_apply,
    val_main_c_6_apply]
  rfl

/-- The wrapped source word the feature lookup reads. -/
theorem v38_apply (x1 : (⟨S2x1600000, .i32⟩ : BufTy).Contents (Elt Ideal)) (e : Fin 1600000) :
    val_main_v38 (F := Ideal) x1 (ix2 e (0 : Fin 1)) = Cert.GcnCore.wrap 100000 (Cert.GcnTerms.rowW x1 e) := by
  rw [val_main_v38_apply, show idx_main_v38 (ix2 e (0 : Fin 1)) = ix1 e from colRow_eq e, val_main_v37_apply,
    val_main_v34_apply, val_main_v36_apply, v2_apply, val_main_v33_apply, val_main_c_7_apply, val_main_v35_apply,
    val_main_c_8_apply]
  rfl

/-- The source's scale, looked up per edge. -/
theorem v21_apply (x1 : (⟨S2x1600000, .i32⟩ : BufTy).Contents (Elt Ideal)) (e : Fin 1600000) :
    val_main_v21 (F := Ideal) x1 (ix1 e)
      = Cert.GcnTerms.scale x1 (Cert.GcnCore.node (by decide) (Cert.GcnTerms.rowW x1 e)) := by
  unfold val_main_v21
  rw [Cert.RowIndex.take_apply (by decide : 0 < 100000) gather_S100000_S1600000x1_S1600000_n_0_n_n_0_1_1 rfl rfl rfl rfl,
    v20_apply, scale_apply]
  rfl

/-- The destination's scale, looked up per edge. -/
theorem v28_apply (x1 : (⟨S2x1600000, .i32⟩ : BufTy).Contents (Elt Ideal)) (e : Fin 1600000) :
    val_main_v28 (F := Ideal) x1 (ix1 e)
      = Cert.GcnTerms.scale x1 (Cert.GcnCore.node (by decide) (Cert.GcnTerms.colW x1 e)) := by
  unfold val_main_v28
  rw [Cert.RowIndex.take_apply (by decide : 0 < 100000) gather_S100000_S1600000x1_S1600000_n_0_n_n_0_1_1 rfl rfl rfl rfl,
    v27_apply, scale_apply]
  rfl

/-- The feature lookup's printed dimension numbers are the generic ones of a lookup of rows. -/
theorem rowDims_eq :
    gather_S100000x64_S1600000x1_S1600000x64_1_0_n_n_0_1_164
      = Cert.LibRowGather.rowDims 100000 64 1600000 Facts₀.gather_S100000x64_S1600000x1_S1600000x64_1_0_n_n_0_1_164_wf := rfl

/-- The source's feature row, looked up per edge. -/
theorem v39_apply (x0 : (⟨S100000x256, .f32⟩ : BufTy).Contents (Elt Ideal)) (x1 : (⟨S2x1600000, .i32⟩ : BufTy).Contents (Elt Ideal))
    (x3 : (⟨S256x64, .f32⟩ : BufTy).Contents (Elt Ideal)) (e : Fin 1600000) (k : Fin 64) :
    val_main_v39 (F := Ideal) x0 x1 x3 (ix2 e k)
      = Cert.GcnTerms.feat x0 x3 (Cert.GcnCore.node (by decide) (Cert.GcnTerms.rowW x1 e)) k := by
  unfold val_main_v39
  rw [rowDims_eq, Cert.LibRowGather.gather_row_apply (by decide : 0 < 100000), v38_apply, val_main_v0_apply]
  unfold Cert.GcnTerms.feat
  refine Finset.sum_congr rfl fun q _ => ?_
  have hl : lidx_main_v0 (ix2 (Cert.LibRowGather.clampRow 100000 (by decide) (Cert.GcnCore.wrap 100000 (Cert.GcnTerms.rowW x1 e))) k) q
      = ix2 (Cert.GcnCore.node (by decide) (Cert.GcnTerms.rowW x1 e)) q := by
    funext a
    match a with
    | ⟨0, _⟩ => rfl
    | ⟨1, _⟩ => rfl
  have hr : ridx_main_v0 (ix2 (Cert.LibRowGather.clampRow 100000 (by decide) (Cert.GcnCore.wrap 100000 (Cert.GcnTerms.rowW x1 e))) k) q
      = ix2 q k := by
    funext a
    match a with
    | ⟨0, _⟩ => rfl
    | ⟨1, _⟩ => rfl
  rw [hl, hr]

/-- One update entry of the reference's last scatter: both scales, the weight and the feature of the edge. -/
theorem v41_at (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S256x64, .f32⟩ : BufTy).Contents (Elt Ideal))
    (e : Fin 1600000) (k : Fin 64) :
    val_main_v41 (F := Ideal) x0 x1 x2 x3 (ix2 e k)
      = ((Cert.GcnTerms.scale x1 (Cert.GcnCore.node (by decide) (Cert.GcnTerms.rowW x1 e))
            * Cert.GcnTerms.scale x1 (Cert.GcnCore.node (by decide) (Cert.GcnTerms.colW x1 e))) * Cert.GcnTerms.weight x2 e)
          * Cert.GcnTerms.feat x0 x3 (Cert.GcnCore.node (by decide) (Cert.GcnTerms.rowW x1 e)) k := by
  have h40 : idx_main_v32 (idx_main_v40 (ix2 e k)) = ix1 e := by
    funext a
    match a with
    | ⟨0, _⟩ => rfl
  rw [val_main_v41_apply, val_main_v40_apply, val_main_v32_apply, h40, val_main_v31_apply, val_main_v29_apply,
    val_main_v30_apply, v21_apply, v28_apply, v39_apply]
  rfl

/-- The same update entry at any index, by its two coordinates. -/
theorem v41_apply (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S256x64, .f32⟩ : BufTy).Contents (Elt Ideal))
    (u : S1600000x64.Idx) :
    val_main_v41 (F := Ideal) x0 x1 x2 x3 u
      = ((Cert.GcnTerms.scale x1 (Cert.GcnCore.node (by decide) (Cert.GcnTerms.rowW x1 (u 0)))
            * Cert.GcnTerms.scale x1 (Cert.GcnCore.node (by decide) (Cert.GcnTerms.colW x1 (u 0)))) * Cert.GcnTerms.weight x2 (u 0))
          * Cert.GcnTerms.feat x0 x3 (Cert.GcnCore.node (by decide) (Cert.GcnTerms.rowW x1 (u 0))) (u 1) := by
  exact (congrArg (val_main_v41 (F := Ideal) x0 x1 x2 x3) (eq_ix2 u)).trans (v41_at x0 x1 x2 x3 (u 0) (u 1))

/-- The last scatter's printed dimension numbers are the generic ones of a scatter of rows. -/
theorem rowScatterDims_eq :
    scatter_S100000x64_S1600000x1_S1600000x64_1_0_0_1
      = Cert.RowIndex.rowScatterDims 100000 64 1600000 Cert.GcnTerms.wfRows := rfl

/-- The column of destination words the last scatter reads is the same column. -/
theorem v43_eq (x1 : (⟨S2x1600000, .i32⟩ : BufTy).Contents (Elt Ideal)) :
    val_main_v43 (F := Ideal) x1 = Cert.GcnCore.idxCol (Cert.GcnTerms.colW x1) := by
  funext k
  rw [val_main_v43_apply, val_main_v4_apply, val_main_v3_apply,
    show idx_main_v3 (idx_main_v4 (idx_main_v43 k)) = ix2 (1 : Fin 2) (k 0) from colIdx_eq k]
  rfl

/-- The reference's last scatter, read at `i`: from zero, the sum of the update entries that land on `i`. -/
theorem v44_apply (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S256x64, .f32⟩ : BufTy).Contents (Elt Ideal))
    (i : S100000x64.Idx) :
    val_main_v44 (F := Ideal) x0 x1 x2 x3 i
      = 0 + ∑ u ∈ Cert.GcnCore.landing Cert.GcnTerms.wfRows (Cert.GcnTerms.colW x1) i, val_main_v41 (F := Ideal) x0 x1 x2 x3 u := by
  have h42 : val_main_v42 (F := Ideal) i = 0 := by
    rw [val_main_v42_apply, val_main_cst_9_apply]; exact Ideal.ofBits_zero_f32
  unfold val_main_v44
  rw [scatterAdd_ideal, rowScatterDims_eq, v43_eq]
  unfold Ideal.hostScatterAdd Cert.GcnCore.landing
  rw [h42]

/-- THE REFERENCE'S RESULT is `result` of the argument arrays. -/
theorem val_eq_result (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S256x64, .f32⟩ : BufTy).Contents (Elt Ideal))
    (x4 : (⟨S64, .f32⟩ : BufTy).Contents (Elt Ideal)) :
    val_main_v47 (F := Ideal) x0 x1 x2 x3 x4 = Cert.GcnTerms.result x0 x1 x2 x3 x4 := by
  funext i
  rw [val_main_v47_apply, Ideal.addf_def, v44_apply, v46_apply]
  unfold Cert.GcnTerms.result
  exact congrArg (fun t => (0 + t) + x4 (ix1 (i 1))) (Finset.sum_congr rfl fun u _ => v41_apply x0 x1 x2 x3 u)

end Cert.ReferenceIdeal.RefValue

end
-- ==== Proof.KernelRun.lean ====
/-
  The kernel's program read as values.

  Before the pallas_call the program computes, from the edge table alone, the in-degree of every node (a scatter of
  integer ones by the edges' column words) and from it the degree scale 1/sqrt(max(deg, 1)) where deg > 0, else 0.
  After the call it looks up the call's result at the edges' (wrapped) row words, weighs each looked-up row by
  exp(cns), scatter-adds the rows by the edges' column words into zeros, scales row v of the sum by the degree
  scale of v, and adds the bias to every row. Here each of these stretches is named as a function of what it
  reads, and the program's run is restated with its result at that function of the argument arrays and of the
  array the pallas_call leaves.
-/
import proofs.«416556_j57698590654796_3_alg».proof.Proof.Gen.KernelIdeal.Frame
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-- The edges' source words: row 0 of the edge table. -/
def rowsOf (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The edges' destination words: row 1 of the edge table. -/
def colsOf (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The in-degrees as 32-bit words: ones scattered by the destination words into zeros, by word addition. -/
def countFrom (col : (⟨S1600000, .i32⟩ : BufTy).Contents (Elt F)) : (⟨S100000, .i32⟩ : BufTy).Contents (Elt F) :=
  Host.scatter scatter_S100000_S1600000x1_S1600000_n_0_0_1 IntOp.addi
    (broadcastInDim S100000 ![] bcast_S_S100000 (constantI S_ 32 0#32))
    (broadcastInDim S1600000x1 ![0] bcast_S1600000_S1600000x1_0 col)
    (broadcastInDim S1600000 ![] bcast_S_S1600000 (constantI S_ 32 1#32))

/-- The degree scale from the in-degrees: 1/sqrt(max(deg, 1)) where the in-degree is positive, zero elsewhere. -/
def scaleFrom (cnt : (⟨S100000, .i32⟩ : BufTy).Contents (Elt F)) : (⟨S100000, .f32⟩ : BufTy).Contents (Elt F) :=
  select (cmpi .sgt cnt (broadcastInDim S100000 ![] bcast_S_S100000 (constantI S_ 32 0#32)))
    (Host.rsqrt (maximumf (sitofp .f32 cnt)
      (broadcastInDim S100000 ![] bcast_S_S100000 (constant S_ .f32 0x3F800000#32))))
    (broadcastInDim S100000 ![] bcast_S_S100000 (constant S_ .f32 0x00000000#32))

/-- The degree scale of an edge table. -/
def scaleOf (ei : (⟨S2x1600000, .i32⟩ : BufTy).Contents (Elt F)) : (⟨S100000, .f32⟩ : BufTy).Contents (Elt F) :=
  scaleFrom (F := F) (countFrom (F := F) (colsOf (F := F) ei))

/-- The same scale with the identity transports along the buffers' own types written where the program has them
    (each is the identity: a buffer's type is the value's type). -/
def scaleStep (cnt : (⟨S100000, .i32⟩ : BufTy).Contents (Elt F)) : main_v14.ty.Contents (Elt F) :=
  (TRef.of (sig := sig) (T := ⟨S100000, .f32⟩) main_v14).toBuf (Val := Elt F)
    (select
      ((TRef.of (sig := sig) (T := ⟨S100000, .i1⟩) main_v10).ofBuf (Val := Elt F)
        (cmpi .sgt cnt (broadcastInDim S100000 ![] bcast_S_S100000 (constantI S_ 32 0#32))))
      ((TRef.of (sig := sig) (T := ⟨S100000, .f32⟩) main_v13).ofBuf (Val := Elt F)
        (Host.rsqrt (maximumf (sitofp .f32 cnt)
          (broadcastInDim S100000 ![] bcast_S_S100000 (constant S_ .f32 0x3F800000#32)))))
      ((TRef.of (sig := sig) (T := ⟨S100000, .f32⟩) main_call0_v1).ofBuf (Val := Elt F)
        ((TRef.of (sig := sig) (T := ⟨S100000, .f32⟩) main_call0_v1).toBuf (Val := Elt F)
          (broadcastInDim S100000 ![] bcast_S_S100000
            ((TRef.of (sig := sig) (T := ⟨S_, .f32⟩) main_call0_v0).ofBuf (Val := Elt F)
              ((TRef.of (sig := sig) (T := ⟨S_, .f32⟩) main_call0_v0).toBuf (Val := Elt F)
                (id ((TRef.of (sig := sig) (T := ⟨S_, .f32⟩) main_cst_2).ofBuf (Val := Elt F) (constant S_ .f32 0x00000000#32)))))))))

/-- The transports are identities. -/
theorem scaleStep_eq (cnt : (⟨S100000, .i32⟩ : BufTy).Contents (Elt F)) : scaleStep (F := F) cnt = scaleFrom (F := F) cnt := rfl

/-- The lines after the pallas_call as one function of what they read: the degree scale, the destination and source
    words, the edge weights' logarithms, the array the call left, the bias. -/
def tail (dis : (⟨S100000, .f32⟩ : BufTy).Contents (Elt F)) (col row : (⟨S1600000, .i32⟩ : BufTy).Contents (Elt F))
    (cns : (⟨S1600000, .f32⟩ : BufTy).Contents (Elt F)) (hp : (⟨S100000x64, .f32⟩ : BufTy).Contents (Elt F))
    (bias : (⟨S64, .f32⟩ : BufTy).Contents (Elt F)) : (⟨S100000x64, .f32⟩ : BufTy).Contents (Elt F) :=
  addf
    (mulf
      (broadcastInDim S100000x64 ![0, 1] bcast_S100000x1_S100000x64_0_1
        (broadcastInDim S100000x1 ![0] bcast_S100000_S100000x1_0 dis))
      (Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 col)
        (mulf
          (broadcastInDim S1600000x64 ![0, 1] bcast_S1600000x1_S1600000x64_0_1
            (broadcastInDim S1600000x1 ![0] bcast_S1600000_S1600000x1_0 (Host.exp cns)))
          (Host.gather gather_S100000x64_S1600000x1_S1600000x64_1_0_n_n_0_1_164 hp
            (broadcastInDim S1600000x1 ![0] bcast_S1600000_S1600000x1_0
              (select (cmpi .slt row (broadcastInDim S1600000 ![] bcast_S_S1600000 (constantI S_ 32 0#32)))
                (addi row (broadcastInDim S1600000 ![] bcast_S_S1600000 (constantI S_ 32 100000#32)))
                row))))))
    (broadcastInDim S100000x64 ![0, 1] bcast_S1x64_S100000x64_0_1 (broadcastInDim S1x64 ![1] bcast_S64_S1x64_1 bias))

variable (m : (ℓ : Loc nD τ sig) → Buf (Elt F) ℓ) (ρ : Dev nD → PrngReg)

/-! ## What the region finds in the buffers the lines before it wrote -/

set_option maxHeartbeats 4000000 in
/-- The source words, as the region finds them. -/
theorem V_rows (c : Dev nD) : V m c main_v1 = rowsOf (F := F) (m ((c : Thread nD τ).loc main_arg1)) := by
  dsimp only [Gen.V, Gen.V0]
  simp only [hostOps0, hostOps0_1, hostOps0_2, List.flatten_cons, List.flatten_nil, List.append_nil, List.cons_append, List.nil_append]
  after_results_simp
  rfl

set_option maxHeartbeats 4000000 in
/-- The destination words, as the region finds them. -/
theorem V_cols (c : Dev nD) : V m c main_v3 = colsOf (F := F) (m ((c : Thread nD τ).loc main_arg1)) := by
  dsimp only [Gen.V, Gen.V0]
  simp only [hostOps0, hostOps0_1, hostOps0_2, List.flatten_cons, List.flatten_nil, List.append_nil, List.cons_append, List.nil_append]
  after_results_simp
  rfl

set_option maxHeartbeats 4000000 in
/-- The in-degree words, as the region finds them: the count of the destination words it finds. -/
theorem V_count (c : Dev nD) : V m c main_v7 = countFrom (F := F) (V m c main_v3) := by
  dsimp only [Gen.V, Gen.V0]
  simp only [hostOps0, hostOps0_1, hostOps0_2, List.flatten_cons, List.flatten_nil, List.append_nil, List.cons_append, List.nil_append]
  after_results_simp
  rfl

set_option maxHeartbeats 4000000 in
/-- The degree scale, as the region finds it: the scale of the in-degree words it finds. -/
theorem V_scale_step (c : Dev nD) : V m c main_v14 = scaleStep (F := F) (V m c main_v7) := by
  dsimp only [Gen.V, Gen.V0]
  simp only [hostOps0, hostOps0_1, hostOps0_2, List.flatten_cons, List.flatten_nil, List.append_nil, List.cons_append, List.nil_append]
  after_results_simp
  rfl

/-- The degree scale, as the region finds it, is the degree scale of the edge table. -/
theorem V_scale (c : Dev nD) : V m c main_v14 = scaleOf (F := F) (m ((c : Thread nD τ).loc main_arg1)) := by
  rw [V_scale_step, scaleStep_eq, V_count, V_cols]
  rfl

set_option maxHeartbeats 4000000 in
/-- The column the pallas_call's third window reads is the degree scale as a column. -/
theorem V_scale_col_step (c : Dev nD) :
    V m c main_v15 = shapeCast S100000x1 (V m c main_v14) shapeCasts_S100000_S100000x1 := by
  dsimp only [Gen.V, Gen.V0]
  simp only [hostOps0, hostOps0_1, hostOps0_2, List.flatten_cons, List.flatten_nil, List.append_nil, List.cons_append, List.nil_append]
  after_results_simp
  rfl

/-- The degree scale of the edge table as the column the pallas_call's third window reads. -/
theorem V_scale_col (c : Dev nD) :
    V m c main_v15 = shapeCast S100000x1 (scaleOf (F := F) (m ((c : Thread nD τ).loc main_arg1))) shapeCasts_S100000_S100000x1 := by
  rw [V_scale_col_step, V_scale]

set_option maxHeartbeats 4000000 in
/-- The program's result buffer after the lines that follow the region: `tail` of what those lines read. -/
theorem tail_eq (c : Dev nD) :
    Pipeline.afterTail₀ cfgs (dats m) 0 (V0 m) [hostOps1] c main_v36
      = tail (F := F) (V m c main_v14) (V m c main_v3) (V m c main_v1) (V m c main_arg2) ((dats m 0 c).arrAt 3 cfg0.N) (V m c main_arg4) := by
  unfold Pipeline.afterTail₀
  show StableHlo.after hostOps1 _ (Proc.devRef .tc main_v36) = _
  after_results_simp
  have h16 : Pipeline.withArrays (cfgs 0).spec c (V0 m c) (fun w => (dats m 0 c).arrAt w (cfgs 0).N) (Proc.devRef .tc main_v16)
      = (dats m 0 c).arrAt 3 cfg0.N := Pipeline.withArrays_arr spec0 launch0.win.arr_inj c (V0 m c) _ 3
  rw [h16,
    Pipeline.withArrays_of_ne _ c (V0 m c) _ main_v14 (by exact (by decide : ∀ w, Pipeline.arrRef spec0 w ≠ main_v14)),
    Pipeline.withArrays_of_ne _ c (V0 m c) _ main_v3 (by exact (by decide : ∀ w, Pipeline.arrRef spec0 w ≠ main_v3)),
    Pipeline.withArrays_of_ne _ c (V0 m c) _ main_v1 (by exact (by decide : ∀ w, Pipeline.arrRef spec0 w ≠ main_v1)),
    Pipeline.withArrays_of_ne _ c (V0 m c) _ main_arg2 (by exact (by decide : ∀ w, Pipeline.arrRef spec0 w ≠ main_arg2)),
    Pipeline.withArrays_of_ne _ c (V0 m c) _ main_arg4 (by exact (by decide : ∀ w, Pipeline.arrRef spec0 w ≠ main_arg4))]
  rfl

/-! ## The run, with the result named -/

/-- Every weakly fair execution of the program terminates with its result at `tail` of the argument arrays' own
    stretches and of the array the pallas_call leaves, and with the arguments unchanged. -/
theorem run_tail : θ_run defs (onTc (τ := τ) (main (F := F))) ⟨m, fun _ => 0, ρ⟩ fun r => ∀ c : Dev nD,
      r.2.mem ((c.tc : Thread nD τ).loc main_v36)
        = tail (F := F) (scaleOf (m ((c : Thread nD τ).loc main_arg1))) (colsOf (m ((c : Thread nD τ).loc main_arg1)))
            (rowsOf (m ((c : Thread nD τ).loc main_arg1))) (m ((c : Thread nD τ).loc main_arg2))
            ((dats m 0 c).arrAt 3 cfg0.N) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v36 (Pipeline.mem_restRefs_of main_v36 (by decide) (by decide))).trans
        ((tail_eq m c).trans (by rw [V_scale, V_cols, V_rows, V_main_arg2, V_main_arg4])),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c))⟩)
    (run_main m ρ)

end Cert.KernelIdeal.RunValue

end
-- ==== Proof.LibKeepdims.lean ====
/-
  Two layout readings used by every reduction that keeps its reduced axis as a unit axis (a row statistic kept as a
  column): a vector [a] viewed as a column [a, 1], and a column [a, 1] spread over the b entries of each row.
-/
import Idealize.ShloMosaic.Lib.Pipeline.Value
import Idealize.ShloMosaic.Lib.ValueIdx

namespace Cert.LibKeepdims

open Idealize.ShloMosaic Idealize.ShloMosaic.ValueIdx

variable {α : Type}

/-- A vector [a] cast to a column [a, 1] reads, at (i, u), the vector's entry i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibPlainMatmul.lean ====
/-
  A plain matrix product read at one entry, on the extended reals.

  For the dimension numbers of an M×K by K×N product (left operand contracted on its second axis, right
  operand on its first, no batch axes), a `tpu.matmul` into the zero accumulator has at entry (a, b) the value
  ∑ₖ l(a, k) · r(k, b): the contraction index has one axis of extent K, so the sum over it is the sum over
  k : Fin K, and the two operand indices at (a, b) and k are (a, k) and (k, b).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

/-- The left operand's index at output (a, b) and contraction coordinate k is (a, k). -/
theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ =>
    show ((DotDims.plain M K N).lhsIdx (ix2 a b) _ (0 : Fin 2)).val = a.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl (ix2 a b) _).trans hk

/-- The right operand's index at output (a, b) and contraction coordinate k is (k, b). -/
theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ =>
    exact ((DotDims.plain M K N).rhsIdx_val_of_single (cr := (0 : Fin 2)) rfl (ix2 a b) _).trans hk
  | ⟨1, _⟩ =>
    show ((DotDims.plain M K N).rhsIdx (ix2 a b) _ (1 : Fin 2)).val = b.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- ENTRY (a, b) OF A PLAIN PRODUCT into the zero accumulator: ∑ₖ l(a, k) · r(k, b). -/
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.BlockValue.lean ====
/-
  What the kernel leaves in its output array.

  Each of the 20 grid points multiplies a block of 5000 rows of x (5000 × 256) by the whole of W (256 × 64) into a
  zero accumulator and scales row p of the product by the p-th entry of the block's column of degree scales; the
  blocks tile the rows of the output, so after the run the output array is ONE function of the whole arrays: entry
  (n, j) is scale(n) · ∑ₖ x(n, k) · W(k, j). (The rounding of x and W to bfloat16 before the product is the identity
  on the extended reals.)
-/
import proofs.«416556_j57698590654796_3_alg».proof.Proof.Gen.KernelIdeal.Frame
import proofs.«416556_j57698590654796_3_alg».proof.Proof.LibKeepdims
import proofs.«416556_j57698590654796_3_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The scaled product as one function of the whole arrays: entry (n, j) is the n-th scale times ∑ₖ x(n, k) · W(k, j). -/
def scaledProduct (X : S100000x256.Idx → EReal) (Wm : S256x64.Idx → EReal) (Dc : S100000x1.Idx → EReal) :
    S100000x64.Idx → EReal :=
  fun i => Dc (ix2 (i 0) (0 : Fin 1)) * ∑ k : Fin 256, X (ix2 (i 0) k) * Wm (ix2 k (i 1))

/-- The printed dimension numbers of the product are those of a plain M×K by K×N product. -/
theorem dot_eq_plain : dot_S5000x256_S256x64_S5000x64_1_0_0_1_n_n = DotDims.plain 5000 256 64 := rfl

/-- The body's stored value at entry (p, q) of a block: the block's p-th scale times ∑ₖ x(p, k) · W(k, q). -/
theorem payload_apply (x0 : Vec Ideal S5000x256 .f32) (x1 : Vec Ideal S256x64 .f32) (x2 : Vec Ideal S5000x1 .f32)
    (p : Fin 5000) (q : Fin 64) :
    k0_pay1 (F := Ideal) x0 x1 x2 (ix2 p q) = x2 (ix2 p (0 : Fin 1)) * ∑ k : Fin 256, x0 (ix2 p k) * x1 (ix2 k q) := by
  unfold k0_pay1
  refine (mulf_apply _ _ _).trans ?_
  refine congrArg₂ (· * ·) ?_ ?_
  · -- the scale: the column spread over the 64 entries of its row, the cast to its own shape the identity
    refine (Cert.LibKeepdims.broadcastTo_a1_ab_apply _ _ p q).trans ?_
    rw [shapeCast_self]
  · -- the product into the zero accumulator; the rounding of its operands is the identity
    rw [dot_eq_plain]
    refine (Cert.LibPlainMatmul.matmul_zero_apply 5000 256 64 none _ _ p q).trans ?_
    rfl

variable (m : (ℓ : Loc nD τ sig) → Buf (Elt Ideal) ℓ)

/-- The offsets of an access to a whole block, both zero, as the constant zero function. -/
theorem hz : (![0, 0] : Fin 2 → Nat) = fun _ => 0 := funext fun a => by fin_cases a <;> rfl

/-- The printed index maps, decided over the 20 grid points: at point t the blocks of x, of the scales and of the
    output are the t-th block of rows (and the only block of columns), and W's block is the whole of W. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

/-- Entry (p, k) of the block of an array of x's shape at point t is the array's entry at row 5000·t + p and
    column k. -/
theorem blk0_read (A : S100000x256.Idx → EReal) (t : Fin cfg0.N) (p : Fin 5000) (k : Fin 256) (n : Fin 100000)
    (hn : n.val = t.val * 5000 + 1 * p.val) :
    (((cfg0.win 0).blk t).view.read (Elt Ideal) A : Vec Ideal S5000x256 .f32) (ix2 p k) = A (ix2 n k) := by
  obtain ⟨e0, e1, -, -, -, -, -, -⟩ := idx_facts t
  show A (((cfg0.win 0).blk t).view.emb (ix2 p k)) = A (ix2 n k)
  refine congrArg A ?_
  funext a; apply Fin.ext
  match a with
  | ⟨0, _⟩ => show win0_0.index t (0 : Fin 2) * 5000 + 1 * p.val = n.val; rw [e0, hn]
  | ⟨1, _⟩ => show win0_0.index t (1 : Fin 2) * 256 + 1 * k.val = k.val; rw [e1, Nat.zero_mul, Nat.zero_add, Nat.one_mul]

/-- Entry (k, q) of the block of an array of W's shape at any point is the array's entry (k, q). -/
theorem blk1_read (A : S256x64.Idx → EReal) (t : Fin cfg0.N) (k : Fin 256) (q q' : Fin 64) (hq : q'.val = q.val) :
    (((cfg0.win 1).blk t).view.read (Elt Ideal) A : Vec Ideal S256x64 .f32) (ix2 k q) = A (ix2 k q') := by
  obtain ⟨-, -, e2, e3, -, -, -, -⟩ := idx_facts t
  show A (((cfg0.win 1).blk t).view.emb (ix2 k q)) = A (ix2 k q')
  refine congrArg A ?_
  funext a; apply Fin.ext
  match a with
  | ⟨0, _⟩ => show win0_1.index t (0 : Fin 2) * 256 + 1 * k.val = k.val; rw [e2, Nat.zero_mul, Nat.zero_add, Nat.one_mul]
  | ⟨1, _⟩ => show win0_1.index t (1 : Fin 2) * 64 + 1 * q.val = q'.val; rw [e3, Nat.zero_mul, Nat.zero_add, Nat.one_mul, hq]

/-- Entry (p, u) of the block of a column of the scales' shape at point t is the column's entry in row 5000·t + p. -/
theorem blk2_read (A : S100000x1.Idx → EReal) (t : Fin cfg0.N) (p : Fin 5000) (u : Fin 1) (n : Fin 100000)
    (hn : n.val = t.val * 5000 + 1 * p.val) :
    (((cfg0.win 2).blk t).view.read (Elt Ideal) A : Vec Ideal S5000x1 .f32) (ix2 p u) = A (ix2 n u) := by
  obtain ⟨-, -, -, -, e4, e5, -, -⟩ := idx_facts t
  show A (((cfg0.win 2).blk t).view.emb (ix2 p u)) = A (ix2 n u)
  refine congrArg A ?_
  funext a; apply Fin.ext
  match a with
  | ⟨0, _⟩ => show win0_2.index t (0 : Fin 2) * 5000 + 1 * p.val = n.val; rw [e4, hn]
  | ⟨1, _⟩ => show win0_2.index t (1 : Fin 2) * 1 + 1 * u.val = u.val; rw [e5, Nat.zero_mul, Nat.zero_add, Nat.one_mul]

/-- THE BODY ON BLOCKS: for any three arrays of the operands' shapes, the body's stored value on their blocks at point
    t is block t of the arrays' scaled product. -/
theorem blockProduct (A0 : S100000x256.Idx → EReal) (A1 : S256x64.Idx → EReal) (A2 : S100000x1.Idx → EReal)
    (t : Fin cfg0.N) :
    k0_pay1 (F := Ideal) (((cfg0.win 0).blk t).view.read (Elt Ideal) A0) (((cfg0.win 1).blk t).view.read (Elt Ideal) A1)
        (((cfg0.win 2).blk t).view.read (Elt Ideal) A2)
      = ((cfg0.win 3).blk t).view.read (Elt Ideal) (scaledProduct A0 A1 A2) := by
  funext j
  show _ = scaledProduct A0 A1 A2 (((cfg0.win 3).blk t).view.emb j)
  have hj : (j : S5000x64.Idx) = ix2 (j 0) (j 1) := eq_ix2 (n0 := 5000) (n1 := 64) j
  refine ((congrArg (k0_pay1 (F := Ideal) (((cfg0.win 0).blk t).view.read (Elt Ideal) A0)
    (((cfg0.win 1).blk t).view.read (Elt Ideal) A1) (((cfg0.win 2).blk t).view.read (Elt Ideal) A2)) hj).trans
    (payload_apply _ _ _ (j 0) (j 1))).trans ?_
  obtain ⟨-, -, -, -, -, -, e6, e7⟩ := idx_facts t
  have hi0 : ((((cfg0.win 3).blk t).view.emb j : S100000x64.Idx) 0).val = t.val * 5000 + 1 * (j 0).val :=
    (rfl : _ = win0_3.index t (0 : Fin 2) * 5000 + 1 * (j 0).val).trans (by rw [e6])
  have hi1 : ((((cfg0.win 3).blk t).view.emb j : S100000x64.Idx) 1).val = (j 1).val :=
    (rfl : _ = win0_3.index t (1 : Fin 2) * 64 + 1 * (j 1).val).trans (by rw [e7, Nat.zero_mul, Nat.zero_add, Nat.one_mul])
  unfold scaledProduct
  exact congrArg₂ (· * ·) (blk2_read A2 t (j 0) (0 : Fin 1) _ hi0) (Finset.sum_congr rfl fun k _ =>
    congrArg₂ (· * ·) (blk0_read A0 t (j 0) k _ hi0) (blk1_read A1 t k (j 1) _ hi1))

/-- WHAT POINT t WRITES BACK is block t of the scaled product of the arrays the region finds. -/
theorem flushed3_eq (c : Dev nD) (t : Fin cfg0.N) :
    (dats m 0 c).flushed 3 t
      = ((cfg0.win 3).blk t).view.read (Elt Ideal) (scaledProduct (V m c main_arg0) (V m c main_arg3) (V m c main_v15)) := by
  show (cfg0.win 3).cut (grid0.coords t) ((dats m 0 c).after 3 t) = _
  rw [after0_3]
  unfold out0_3
  rw [View.canon_unit_zero hz]
  simp only [View.ld_unit_zero (S := S5000x256) hz, View.ld_unit_zero (S := S256x64) hz, View.ld_unit_zero (S := S5000x1) hz]
  unfold iblk
  funext j
  show k0_pay1 (F := Ideal) (((cfg0.win 0).blk t).view.read (Elt Ideal) (V m c (Pipeline.arrRef spec0 0)))
      (((cfg0.win 1).blk t).view.read (Elt Ideal) (V m c (Pipeline.arrRef spec0 1)))
      (((cfg0.win 2).blk t).view.read (Elt Ideal) (V m c (Pipeline.arrRef spec0 2))) j = _
  exact congrFun (blockProduct (V m c (Pipeline.arrRef spec0 0)) (V m c (Pipeline.arrRef spec0 1))
    (V m c (Pipeline.arrRef spec0 2)) t) j

/-- An index of the array is in point t's block iff each coordinate is in the block's range on its axis. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- Every row of the array is in some point's block: row r in the block of point r / 5000. -/
theorem cover3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < 20 := by omega
  refine ⟨⟨(i 0).val / 5000, ht⟩, flush0_3 _, ?_⟩
  rw [mem_blk3]
  obtain ⟨-, -, -, -, -, -, e6, e7⟩ := idx_facts ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]
    show (i 0).val / 5000 * 5000 ≤ (i 0).val ∧ (i 0).val < (i 0).val / 5000 * 5000 + 5000
    clear e6 e7
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e7, Nat.zero_mul, Nat.zero_add]
    exact ⟨Nat.zero_le _, hi1⟩

/-- THE OUTPUT ARRAY after the run is the scaled product of the arrays the region finds. -/
theorem final3 (c : Dev nD) :
    (dats m 0 c).arrAt 3 cfg0.N = scaledProduct (V m c main_arg0) (V m c main_arg3) (V m c main_v15) := by
  exact (dats m 0 c).arrAt_eq_of_cover 3 (scaledProduct (V m c main_arg0) (V m c main_arg3) (V m c main_v15))
    (fun t _ => flushed3_eq m c t) cover3

end Cert.KernelIdeal.BlockValue

end
-- ==== Proof.KernelValue.lean ====
/-
  The kernel program's result is the graph convolution's sum.

  Read one operation at a time, the lines after the pallas_call compute at (v, k): scale(v) times — from zero — the
  sum over the update entries that land on (v, k) of exp(cns) · (scale(src) · (x · W)(src, k)), plus the bias: the
  array the call left holds scale(n) · (x · W)(n, k), the degree scale is computed from the integer degree count,
  and the destination's scale is applied once to the sum. A non-negative real factor distributes over the sum, and
  on an edge that arrives at v the looked-up destination is v: this is the reference's arrangement of the same sum.
-/
import proofs.«416556_j57698590654796_3_alg».proof.Proof.KernelRun
import proofs.«416556_j57698590654796_3_alg».proof.Proof.BlockValue
import proofs.«416556_j57698590654796_3_alg».proof.Proof.GcnTerms
import proofs.«416556_j57698590654796_3_alg».proof.Proof.LibRowIndex
import proofs.«416556_j57698590654796_3_alg».proof.Proof.LibRowGather
import proofs.«416556_j57698590654796_3_alg».proof.Proof.LibKeepdims
import proofs.«416556_j57698590654796_3_alg».proof.Proof.LibSegCount
import Idealize.ShloMosaic.Lib.StableHlo.Predicate
import Idealize.ShloMosaic.Lib.ValueIdx
import Idealize.ShloMosaic.Lib.Pipeline.Value
import Idealize.ShloMosaic.PureOps.Ideal.Laws

noncomputable section

namespace Cert.KernelIdeal.TailValue

open Cert.KernelIdeal Cert.KernelIdeal.Gen Cert.KernelIdeal.RunValue Cert.KernelIdeal.BlockValue
open Idealize.ShloMosaic Idealize.ShloMosaic.ValueIdx
open Cert.GcnTerms Cert.GcnCore Cert.LibRowGather Cert.RowIndex
open scoped BigOperators

/-! ## The printed dimension numbers are the general ones -/

theorem degDims_eq : scatter_S100000_S1600000x1_S1600000_n_0_0_1 = degDims 100000 1600000 wfDeg := rfl
theorem rowScatter_eq : scatter_S100000x64_S1600000x1_S1600000x64_1_0_0_1 = rowScatterDims 100000 64 1600000 wfRows := rfl
theorem rowGather_eq : gather_S100000x64_S1600000x1_S1600000x64_1_0_n_n_0_1_164
    = rowDims 100000 64 1600000 Facts₀.gather_S100000x64_S1600000x1_S1600000x64_1_0_n_n_0_1_164_wf := rfl

/-! ## Layout operations read at an index -/

/-- A vector of 1,600,000 entries as a column: entry (e, z) is the vector's e-th. -/
theorem column_apply {α : Type} (y : S1600000.Idx → α) (e : Fin 1600000) (z : Fin 1) :
    broadcastInDim S1600000x1 ![0] bcast_S1600000_S1600000x1_0 y (ix2 e z) = y (ix1 e) :=
  broadcastInDim_apply _ bcast_S1600000_S1600000x1_0 y (ix2 e z) (ix1 e) (fun a => match a with
    | ⟨0, _⟩ => by show e.val = if (1600000 : Nat) = 1 then 0 else e.val; rw [if_neg (by decide)])

/-- That column spread over 64 columns: entry (e, q) is the vector's e-th. -/
theorem spread_apply {α : Type} (y : S1600000.Idx → α) (e : Fin 1600000) (q : Fin 64) :
    broadcastInDim S1600000x64 ![0, 1] bcast_S1600000x1_S1600000x64_0_1
      (broadcastInDim S1600000x1 ![0] bcast_S1600000_S1600000x1_0 y) (ix2 e q) = y (ix1 e) :=
  (broadcastInDim_apply _ bcast_S1600000x1_S1600000x64_0_1 _ (ix2 e q) (ix2 e (0 : Fin 1)) (fun a => match a with
    | ⟨0, _⟩ => by show e.val = if (1600000 : Nat) = 1 then 0 else e.val; rw [if_neg (by decide)]
    | ⟨1, _⟩ => by show 0 = if (1 : Nat) = 1 then 0 else q.val; rw [if_pos rfl])).trans (column_apply y e 0)

/-- A vector over the nodes as a column spread over 64 columns: entry (v, k) is the vector's v-th. -/
theorem node_spread_apply {α : Type} (y : S100000.Idx → α) (v : Fin 100000) (k : Fin 64) :
    broadcastInDim S100000x64 ![0, 1] bcast_S100000x1_S100000x64_0_1
      (broadcastInDim S100000x1 ![0] bcast_S100000_S100000x1_0 y) (ix2 v k) = y (ix1 v) :=
  (broadcastInDim_apply _ bcast_S100000x1_S100000x64_0_1 _ (ix2 v k) (ix2 v (0 : Fin 1)) (fun a => match a with
    | ⟨0, _⟩ => by show v.val = if (100000 : Nat) = 1 then 0 else v.val; rw [if_neg (by decide)]
    | ⟨1, _⟩ => by show 0 = if (1 : Nat) = 1 then 0 else k.val; rw [if_pos rfl])).trans
  (broadcastInDim_apply _ bcast_S100000_S100000x1_0 y (ix2 v (0 : Fin 1)) (ix1 v) (fun a => match a with
    | ⟨0, _⟩ => by show v.val = if (100000 : Nat) = 1 then 0 else v.val; rw [if_neg (by decide)]))

/-- The bias as a row spread over the nodes: entry (v, k) is the bias's k-th. -/
theorem bias_spread_apply {α : Type} (y : S64.Idx → α) (v : Fin 100000) (k : Fin 64) :
    broadcastInDim S100000x64 ![0, 1] bcast_S1x64_S100000x64_0_1 (broadcastInDim S1x64 ![1] bcast_S64_S1x64_1 y) (ix2 v k)
      = y (ix1 k) :=
  (broadcastInDim_apply _ bcast_S1x64_S100000x64_0_1 _ (ix2 v k) (ix2 (0 : Fin 1) k) (fun a => match a with
    | ⟨0, _⟩ => by show 0 = if (1 : Nat) = 1 then 0 else v.val; rw [if_pos rfl]
    | ⟨1, _⟩ => by show k.val = if (64 : Nat) = 1 then 0 else k.val; rw [if_neg (by decide)])).trans
  (broadcastInDim_apply _ bcast_S64_S1x64_1 y (ix2 (0 : Fin 1) k) (ix1 k) (fun a => match a with
    | ⟨0, _⟩ => by show k.val = if (64 : Nat) = 1 then 0 else k.val; rw [if_neg (by decide)]))

/-! ## The edge table's two rows -/

/-- The destination words are row 1 of the edge table. -/
theorem colsOf_apply (x1 : (⟨S2x1600000, .i32⟩ : BufTy).Contents (Elt Ideal)) (e : Fin 1600000) :
    colsOf (F := Ideal) x1 (ix1 e) = colW x1 e := by
  unfold colsOf colW
  refine (shapeCast_apply _ shapeCasts_S1x1600000_S1600000 (ix1 e) (ix2 (0 : Fin 1) e)
    (by rewrite [Shape.rowMajor_val_two, Shape.rowMajor_val_one]; show 0 * 1600000 + e.val = e.val; omega)).trans ?_
  exact extractStridedSlice_apply ![1, 0] x1 slices_S2x1600000_S1x1600000_1_0 (ix2 (0 : Fin 1) e) (ix2 (1 : Fin 2) e)
    (fun a => match a with
      | ⟨0, _⟩ => by show (1 : Nat) = 1 + 0; rfl
      | ⟨1, _⟩ => by show e.val = 0 + e.val; omega)

/-- The source words are row 0 of the edge table. -/
theorem rowsOf_apply (x1 : (⟨S2x1600000, .i32⟩ : BufTy).Contents (Elt Ideal)) (e : Fin 1600000) :
    rowsOf (F := Ideal) x1 (ix1 e) = rowW x1 e := by
  unfold rowsOf rowW
  refine (shapeCast_apply _ shapeCasts_S1x1600000_S1600000 (ix1 e) (ix2 (0 : Fin 1) e)
    (by rewrite [Shape.rowMajor_val_two, Shape.rowMajor_val_one]; show 0 * 1600000 + e.val = e.val; omega)).trans ?_
  exact extractStridedSlice_apply ![0, 0] x1 slices_S2x1600000_S1x1600000_0_0 (ix2 (0 : Fin 1) e) (ix2 (0 : Fin 2) e)
    (fun a => match a with
      | ⟨0, _⟩ => by show (0 : Nat) = 0 + 0; rfl
      | ⟨1, _⟩ => by show e.val = 0 + e.val; omega)

/-- The column of destination words the two scatters read. -/
theorem colIdx_eq (x1 : (⟨S2x1600000, .i32⟩ : BufTy).Contents (Elt Ideal)) :
    broadcastInDim S1600000x1 ![0] bcast_S1600000_S1600000x1_0 (colsOf (F := Ideal) x1) = idxCol (colW x1) := by
  funext j
  obtain ⟨e, z, rfl⟩ : ∃ (e : Fin 1600000) (z : Fin 1), j = ix2 e z := ⟨j 0, j 1, eq_ix2 j⟩
  exact (column_apply _ e z).trans (colsOf_apply x1 e)

/-! ## The degree scale -/

/-- The integer degree count at node `n` is the in-degree, as a word. -/
theorem count_apply (x1 : (⟨S2x1600000, .i32⟩ : BufTy).Contents (Elt Ideal)) (n : Fin 100000) :
    countFrom (F := Ideal) (colsOf (F := Ideal) x1) (ix1 n) = BitVec.ofNat 32 (deg x1 n) := by
  unfold countFrom deg
  rw [degDims_eq, colIdx_eq x1]
  exact Cert.SegCount.scatter_ones_apply _ _ _

/-- The kernel program's degree scale, read at node `n`, is the node's scale. -/
theorem scale_apply (x1 : (⟨S2x1600000, .i32⟩ : BufTy).Contents (Elt Ideal)) (n : Fin 100000) :
    scaleOf (F := Ideal) x1 (ix1 n) = Cert.GcnTerms.scale x1 n := by
  have hc := count_apply x1 n
  unfold scaleOf scaleFrom Cert.GcnTerms.scale
  show Scalar.select (IntOp.cmpi .sgt (countFrom (F := Ideal) (colsOf (F := Ideal) x1) (ix1 n)) 0#32)
      (Ideal.rsqrt (max (((countFrom (F := Ideal) (colsOf (F := Ideal) x1) (ix1 n)).toInt : ℝ) : EReal) (Ideal.ofBits .f32 0x3F800000#32)))
      (Ideal.ofBits .f32 0x00000000#32) = _
  rw [hc, Cert.SegCount.ofBits_one, Ideal.ofBits_zero_f32]
  exact Cert.SegCount.scale_int_eq_real _ (deg_lt x1 n) _ _

/-! ## The lines after the pallas_call -/

/-- What is scattered, at update entry (e, q): the edge's weight times the looked-up row of the scaled product. -/
theorem update_apply (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S256x64, .f32⟩ : BufTy).Contents (Elt Ideal))
    (e : Fin 1600000) (q : Fin 64) :
    mulf (F := Ideal) (φ := .f32)
        (broadcastInDim S1600000x64 ![0, 1] bcast_S1600000x1_S1600000x64_0_1
          (broadcastInDim S1600000x1 ![0] bcast_S1600000_S1600000x1_0 (Host.exp x2)))
        (Host.gather gather_S100000x64_S1600000x1_S1600000x64_1_0_n_n_0_1_164
          (scaledProduct x0 x3 (shapeCast S100000x1 (scaleOf (F := Ideal) x1) shapeCasts_S100000_S100000x1))
          (broadcastInDim S1600000x1 ![0] bcast_S1600000_S1600000x1_0
            (select (cmpi .slt (rowsOf (F := Ideal) x1) (broadcastInDim S1600000 ![] bcast_S_S1600000 (constantI S_ 32 0#32)))
              (addi (rowsOf (F := Ideal) x1) (broadcastInDim S1600000 ![] bcast_S_S1600000 (constantI S_ 32 100000#32)))
              (rowsOf (F := Ideal) x1)))) (ix2 e q)
      = weight x2 e * (scale x1 (node (by decide) (rowW x1 e)) * feat x0 x3 (node (by decide) (rowW x1 e)) q) := by
  rw [mulf_apply, spread_apply, rowGather_eq, gather_row_apply (by decide : 0 < 100000), column_apply]
  have hw : (select (cmpi .slt (rowsOf (F := Ideal) x1) (broadcastInDim S1600000 ![] bcast_S_S1600000 (constantI S_ 32 0#32)))
              (addi (rowsOf (F := Ideal) x1) (broadcastInDim S1600000 ![] bcast_S_S1600000 (constantI S_ 32 100000#32)))
              (rowsOf (F := Ideal) x1)) (ix1 e) = wrap 100000 (rowW x1 e) := by
    rw [← rowsOf_apply x1 e]; rfl
  rw [hw]
  show weight x2 e * (scaledProduct x0 x3 _ (ix2 (node (by decide) (rowW x1 e)) q)) = _
  unfold scaledProduct
  show weight x2 e * (shapeCast S100000x1 (scaleOf (F := Ideal) x1) shapeCasts_S100000_S100000x1 (ix2 (node (by decide) (rowW x1 e)) (0 : Fin 1))
      * feat x0 x3 (node (by decide) (rowW x1 e)) q) = _
  rw [Cert.LibKeepdims.shapeCast_a_a1_apply, scale_apply]

/-- At the exact values the host's accumulating scatter is the exact scatter-add. -/
theorem scatterAdd_ideal {s si u : Shape} {w : Nat} {φ : FTy} (d : ScatterDims s si u) (x : FVec Ideal s φ)
    (idx : IVec si w) (upd : FVec Ideal u φ) : Host.scatterAdd d x idx upd = Ideal.hostScatterAdd d x idx upd := rfl

/-- The scatter-add of any update rows by the destination words into zeros, at `i`: from zero, the sum of the update
    entries landing there. -/
theorem scattered_sum (x1 : (⟨S2x1600000, .i32⟩ : BufTy).Contents (Elt Ideal))
    (upd : (⟨S1600000x64, .f32⟩ : BufTy).Contents (Elt Ideal)) (i : S100000x64.Idx) :
    Host.scatterAdd (F := Ideal) (φ := .f32) scatter_S100000x64_S1600000x1_S1600000x64_1_0_0_1
        (broadcastInDim S100000x64 ![] bcast_S_S100000x64 (constant S_ .f32 0x00000000#32))
        (broadcastInDim S1600000x1 ![0] bcast_S1600000_S1600000x1_0 (colsOf (F := Ideal) x1)) upd i
      = 0 + ∑ u ∈ landing wfRows (colW x1) i, upd u := by
  have hz : (broadcastInDim S100000x64 ![] bcast_S_S100000x64 (constant (F := Ideal) S_ .f32 0x00000000#32)) i = 0 :=
    Ideal.ofBits_zero_f32
  rw [scatterAdd_ideal, rowScatter_eq, colIdx_eq x1]
  unfold Ideal.hostScatterAdd landing
  rw [hz]

/-- THE KERNEL PROGRAM'S RESULT, with the pallas_call's array at the scaled product, is `result` of the argument arrays. -/
theorem tail_eq_result (x0 : (⟨S100000x256, .f32⟩ : BufTy).Contents (Elt Ideal)) (x1 : (⟨S2x1600000, .i32⟩ : BufTy).Contents (Elt Ideal))
    (x2 : (⟨S1600000, .f32⟩ : BufTy).Contents (Elt Ideal)) (x3 : (⟨S256x64, .f32⟩ : BufTy).Contents (Elt Ideal))
    (x4 : (⟨S64, .f32⟩ : BufTy).Contents (Elt Ideal)) :
    tail (F := Ideal) (scaleOf x1) (colsOf x1) (rowsOf x1) x2
        (scaledProduct x0 x3 (shapeCast S100000x1 (scaleOf (F := Ideal) x1) shapeCasts_S100000_S100000x1)) x4
      = Cert.GcnTerms.result x0 x1 x2 x3 x4 := by
  funext i
  obtain ⟨v, k, rfl⟩ : ∃ (v : Fin 100000) (k : Fin 64), i = ix2 v k := ⟨i 0, i 1, eq_ix2 i⟩
  rw [← Cert.GcnTerms.result_eq_scaled_once x0 x1 x2 x3 x4 (ix2 v k)]
  unfold tail
  rw [addf_apply, mulf_apply, node_spread_apply, bias_spread_apply, scattered_sum, scale_apply]
  refine congrArg (fun t => scale x1 v * (0 + t) + x4 (ix1 k)) (Finset.sum_congr rfl fun u _ => ?_)
  obtain ⟨e, q, rfl⟩ : ∃ (e : Fin 1600000) (q : Fin 64), u = ix2 e q := ⟨u 0, u 1, eq_ix2 u⟩
  exact update_apply x0 x1 x2 x3 e q

end Cert.KernelIdeal.TailValue

end
-- ==== Proof.lean ====
/- The proof of `Cert.Claim` (proofs.«416556_j57698590654796_3_alg».proof.Defs): a graph convolution with its dense product in a
   pallas_call — h' = scale · (x · W) per block of 5000 nodes, then a gather by source, a weighting by exp(cns), a
   scatter-add by destination, the destination's scale and the bias — against the plain jnp reference, which scales
   each message by scale(src) · scale(dst) · exp(cns) before the scatter-add.
   The three frames are the generated ones (the reference's is its run with the result dropped). `preserves` is
   trivial: the ideal pass rewrote nothing. `algebraic`: both programs end at ONE function of the argument arrays,
   Proof/GcnTerms.lean's `result` — at (v, k) the sum over the edges arriving at v of
   ((scale(src) · scale(dst)) · exp(cns)) · (x · W)(src, k), plus the bias. The reference computes it in this form
   (Proof/RefValue.lean). The kernel program's lines around the call are read in Proof/KernelRun.lean, the array the
   call leaves in Proof/BlockValue.lean, and Proof/KernelValue.lean brings the two to `result`: the kernel applies
   scale(dst) once to the whole sum, which is the same because a non-negative real factor distributes over a sum
   of extended reals (Proof/LibSumAlgebra.lean) and on an arriving edge the looked-up destination is the node itself
   (Proof/LibRowIndex.lean, Proof/GcnCore.lean); its integer degree count and the reference's real one are the same
   number (Proof/LibSegCount.lean). No finiteness of the inputs is used. -/
import proofs.«416556_j57698590654796_3_alg».proof.Defs
import proofs.«416556_j57698590654796_3_alg».proof.Proof.Gen.Kernel
import proofs.«416556_j57698590654796_3_alg».proof.Proof.Gen.Kernel.Skeleton
import proofs.«416556_j57698590654796_3_alg».proof.Proof.Gen.Kernel.Launch
import proofs.«416556_j57698590654796_3_alg».proof.Proof.Gen.Kernel.Points
import proofs.«416556_j57698590654796_3_alg».proof.Proof.Gen.Kernel.Frame
import proofs.«416556_j57698590654796_3_alg».proof.Proof.Gen.KernelIdeal
import proofs.«416556_j57698590654796_3_alg».proof.Proof.Gen.KernelIdeal.Skeleton
import proofs.«416556_j57698590654796_3_alg».proof.Proof.Gen.KernelIdeal.Launch
import proofs.«416556_j57698590654796_3_alg».proof.Proof.Gen.KernelIdeal.Points
import proofs.«416556_j57698590654796_3_alg».proof.Proof.Gen.KernelIdeal.Frame
import proofs.«416556_j57698590654796_3_alg».proof.Proof.Gen.ReferenceIdeal
import proofs.«416556_j57698590654796_3_alg».proof.Proof.Gen.Pre_finite_inputs
import proofs.«416556_j57698590654796_3_alg».proof.Proof.RefReadP
import proofs.«416556_j57698590654796_3_alg».proof.Proof.RefValue
import proofs.«416556_j57698590654796_3_alg».proof.Proof.KernelRun
import proofs.«416556_j57698590654796_3_alg».proof.Proof.BlockValue
import proofs.«416556_j57698590654796_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The kernel program ends with its result at `result` of its argument arrays: the array the pallas_call leaves is
    the scaled product, and the lines after it bring `result` out of it. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v36)
          = Cert.GcnTerms.result (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  refine (θ_run Cert.KernelIdeal.defs _ _).mono (fun _ h c => ⟨(h c).1.trans ?_, (h c).2⟩)
    (Cert.KernelIdeal.RunValue.run_tail (F := Ideal) m ρ)
  rw [Cert.KernelIdeal.BlockValue.final3, Cert.KernelIdeal.Gen.V_main_arg0, Cert.KernelIdeal.Gen.V_main_arg3,
    Cert.KernelIdeal.RunValue.V_scale_col]
  exact Cert.KernelIdeal.TailValue.tail_eq_result _ _ _ _ _

/-- Both programs, from memories that agree on the arguments, end at `result` of the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v47_eq, Cert.ReferenceIdeal.RefValue.val_eq_result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
